-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x16384 : Shape := ⟨2, ![4096, 16384]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : FVec F S4096x16384 .f32) (main_arg2 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S4096x16384 : Shape := ⟨2, ![4096, 16384]⟩
abbrev S16384 : Shape := ⟨1, ![16384]⟩
abbrev S8192x4096 : Shape := ⟨2, ![8192, 4096]⟩
abbrev S1x16384 : Shape := ⟨2, ![1, 16384]⟩
abbrev S8192x16384 : Shape := ⟨2, ![8192, 16384]⟩
abbrev S512x1024 : Shape := ⟨2, ![512, 1024]⟩
abbrev S1024x2048 : Shape := ⟨2, ![1024, 2048]⟩
abbrev S1x2048 : Shape := ⟨2, ![1, 2048]⟩
abbrev S512x2048 : Shape := ⟨2, ![512, 2048]⟩
abbrev S4x2048x16384 : Shape := ⟨3, ![4, 2048, 16384]⟩

abbrev nBuf : Space → Nat
  | .hbm => 9
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x16384, .f32⟩
  | .hbm, ⟨2, _⟩ => ⟨S16384, .f32⟩
  | .hbm, ⟨3, _⟩ => ⟨S8192x4096, .f32⟩
  | .hbm, ⟨4, _⟩ => ⟨S8192x4096, .bf16⟩
  | .hbm, ⟨5, _⟩ => ⟨S4096x16384, .bf16⟩
  | .hbm, ⟨6, _⟩ => ⟨S1x16384, .f32⟩
  | .hbm, ⟨7, _⟩ => ⟨S8192x16384, .f32⟩
  | .hbm, ⟨8, _⟩ => ⟨S4x2048x16384, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S16384_S1x16384 : S16384.ShapeCasts S1x16384
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x16384_S4x2048x16384 : S8192x16384.ShapeCasts S4x2048x16384
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .bf16 = 32 ∨ (Rect.block (s := S8192x4096) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x16384.size a
  hwx0_1 : ∀ i : grid0.Coords, EltTy.bits .bf16 = 32 ∨ (Rect.block (s := S4096x16384) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x16384.size a
  hwx0_3 : ∀ i : grid0.Coords, EltTy.bits .f32 = 32 ∨ (Rect.block (s := S8192x16384) S512x2048.size (cc0_transform_3 i) (hinb0_3 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x16384 : Shape := ⟨2, ![4096, 16384]⟩
abbrev S16384 : Shape := ⟨1, ![16384]⟩
abbrev S4x2048x16384 : Shape := ⟨3, ![4, 2048, 16384]⟩
abbrev S1x1x16384 : Shape := ⟨3, ![1, 1, 16384]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x16384, .f32⟩
  | .hbm, ⟨2, _⟩ => ⟨S16384, .f32⟩
  | .hbm, ⟨3, _⟩ => ⟨S4x2048x16384, .f32⟩
  | .hbm, ⟨4, _⟩ => ⟨S1x1x16384, .f32⟩
  | .hbm, ⟨5, _⟩ => ⟨S4x2048x16384, .f32⟩
  | .hbm, ⟨6, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S16384_S1x1x16384 : S16384.ShapeCasts S1x1x16384
  bcast_S1x1x16384_S4x2048x16384_0_1_2 : S1x1x16384.BroadcastsInDim S4x2048x16384 (![0, 1, 2] : Fin 3 → Fin S4x2048x16384.rank)
  dot_S4x2048x4096_S4096x16384_S4x2048x16384_2_0_01_1_n_n_wf : DotDims.WF S4x2048x4096 S4096x16384 S4x2048x16384 [2] [0] [0, 1] [1] [] []

variable [Facts₀]

def dot_S4x2048x4096_S4096x16384_S4x2048x16384_2_0_01_1_n_n : DotDims S4x2048x4096 S4096x16384 S4x2048x16384 where
  lhsContracting := [2]
  rhsContracting := [0]
  lhsNonContracting := [0, 1]
  rhsNonContracting := [1]
  lhsBatch := []
  rhsBatch := []
  wf := dot_S4x2048x4096_S4096x16384_S4x2048x16384_2_0_01_1_n_n_wf

class Facts : Prop extends Facts₀ where

variable [Facts]
-- ==== Proof.CasePieces.lean ====
/-
  What one grid point leaves behind, case by case, as plain functions of the blocks it was given.

  A grid point (i, j, k) sees the k-th 1024-wide slab of a 512-row block of the activations (x0), the matching
  1024×2048 slab of the weights (x1), a 2048-wide piece of the bias row (x2), and the running total kept in the
  scratch accumulator (acc). Writing  step acc x0 x1 = acc + x0·x1  (the product taken into a zero accumulator) and
  zero for the all-zero block:

    * first slab (k = 0):        the accumulator is reset, then updated:  step zero x0 x1;
    * middle slabs (k = 1, 2):   the accumulator is updated:             step acc x0 x1;
    * last slab (k = 3):         the accumulator is updated the same way, and the output block is the updated
                                 accumulator plus the bias piece broadcast down the rows.

  Each statement is read off the stores the body performs in that case: every store covers its whole buffer, so
  the buffer ends holding the last stored value, and a load that follows a store reads that stored value.
-/
import proofs.«154859_j34643206210174_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem origin2 : (![0, 0] : Fin 2 → Nat) = fun _ => 0 := funext fun a => by fin_cases a <;> rfl

/-- First slab: the accumulator ends at the update of the zero block. -/
theorem scratch_first (c : Dev nD) (i : grid0.Coords) (a3 : Memref sig .tc .vmem S512x1024 .bf16) (h3 : a3.IsWhole) (a4 : Memref sig .tc .vmem S1024x2048 .bf16) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (hc0 : cond0_0 i) (hc1 : ¬cond0_1 i)
    (x0 : Vec F S512x1024 .bf16) (x1 : Vec F S1024x2048 .bf16) (x2 : Vec F S1x2048 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x2048) origin2, View.readCov_unit_zero (S := S512x2048) _ origin2]
  simp only [View.readAt_eq_ld, h3.read_unread, h4.read_unread, View.ld_unit_zero (S := S512x1024) origin2,
    View.ld_unit_zero (S := S1024x2048) origin2]

/-- Middle slabs: the accumulator ends at the update of what it held. -/
theorem scratch_middle (c : Dev nD) (i : grid0.Coords) (a3 : Memref sig .tc .vmem S512x1024 .bf16) (h3 : a3.IsWhole) (a4 : Memref sig .tc .vmem S1024x2048 .bf16) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (hc0 : ¬cond0_0 i) (hc1 : ¬cond0_1 i)
    (x0 : Vec F S512x1024 .bf16) (x1 : Vec F S1024x2048 .bf16) (x2 : Vec F S1x2048 .f32) (xs0 : Vec F S512x2048 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero origin2]
  simp only [View.readAt_eq_ld, h3.read_unread, h4.read_unread, h7.read_unread, View.ld_unit_zero (S := S512x1024) origin2,
    View.ld_unit_zero (S := S1024x2048) origin2, View.ld_unit_zero (S := S512x2048) origin2]

/-- Last slab: the accumulator is updated as in the middle slabs. -/
theorem scratch_last (c : Dev nD) (i : grid0.Coords) (a3 : Memref sig .tc .vmem S512x1024 .bf16) (h3 : a3.IsWhole) (a4 : Memref sig .tc .vmem S1024x2048 .bf16) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (hc0 : ¬cond0_0 i) (hc1 : cond0_1 i)
    (x0 : Vec F S512x1024 .bf16) (x1 : Vec F S1024x2048 .bf16) (x2 : Vec F S1x2048 .f32) (xs0 : Vec F S512x2048 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero origin2]
  simp only [View.readAt_eq_ld, h3.read_unread, h4.read_unread, h7.read_unread, View.ld_unit_zero (S := S512x1024) origin2,
    View.ld_unit_zero (S := S1024x2048) origin2, View.ld_unit_zero (S := S512x2048) origin2]

/-- Last slab: the output block is the updated accumulator plus the broadcast bias piece. -/
theorem out_last (c : Dev nD) (i : grid0.Coords) (a3 : Memref sig .tc .vmem S512x1024 .bf16) (h3 : a3.IsWhole) (a4 : Memref sig .tc .vmem S1024x2048 .bf16) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (hc0 : ¬cond0_0 i) (hc1 : cond0_1 i)
    (x0 : Vec F S512x1024 .bf16) (x1 : Vec F S1024x2048 .bf16) (x2 : Vec F S1x2048 .f32) (xs0 : Vec F S512x2048 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero origin2]
  simp only [View.readCov_unit_zero (S := S512x2048) _ origin2, View.readAt_eq_ld, h3.read_unread, h4.read_unread,
    h5.read_unread, h7.read_unread, View.ld_unit_zero (S := S512x1024) origin2,
    View.ld_unit_zero (S := S1024x2048) origin2, View.ld_unit_zero (S := S512x2048) origin2,
    View.ld_unit_zero (S := S1x2048) origin2]

end Cert.KernelIdeal.Pieces

end
-- ==== Proof.SumSpec.lean ====
/-
  The value both programs compute, and the one law of sums that joins them.

  Both programs compute, for a row r of the flattened activations X [8192, 4096], a column f of the weights
  W [4096, 16384] and the bias row B [1, 16384],

      y(r, f) = Σ_{d < 4096} X(r, d) · W(d, f)  +  B(0, f).

  The reference takes the sum over d in one product. The kernel walks the contraction axis in four blocks of 1024
  and keeps a running total: after the blocks 0 … k it holds the partial sum over d < 1024·(k+1), starting from
  zero, and adds the bias after the last block. Only the associativity of + on the extended reals is involved
  (a sum over a range split at a point), so no finiteness of the inputs is needed.

  To speak of "the first n terms" without carrying bounds around, a matrix is read at natural-number coordinates,
  zero outside its extents; inside them this is the matrix itself.
-/
import Idealize.ShloMosaic.PureOps.Ideal.Laws
import Idealize.ShloMosaic.Lib.ValueIdx

noncomputable section

open scoped BigOperators

namespace Cert.DenseBias

open Idealize.ShloMosaic Idealize.ShloMosaic.ValueIdx

/-- Entry (r, d) of an R×D matrix at natural coordinates: zero outside the matrix. -/
def at2 {R D : ℕ} (X : (⟨2, ![R, D]⟩ : Shape).Idx → EReal) (r d : ℕ) : EReal :=
  if h : r < R ∧ d < D then X (ix2 ⟨r, h.1⟩ ⟨d, h.2⟩) else 0

/-- Inside the matrix it is the matrix's entry. -/
theorem at2_of_lt {R D : ℕ} (X : (⟨2, ![R, D]⟩ : Shape).Idx → EReal) (r d : ℕ) (hr : r < R) (hd : d < D) :
    at2 X r d = X (ix2 ⟨r, hr⟩ ⟨d, hd⟩) := dif_pos ⟨hr, hd⟩

theorem at2_fin {R D : ℕ} (X : (⟨2, ![R, D]⟩ : Shape).Idx → EReal) (r : Fin R) (d : Fin D) :
    at2 X r.val d.val = X (ix2 r d) := dif_pos ⟨r.isLt, d.isLt⟩

/-- The first n terms of row r of X against column f of W. -/
def dotUpTo {R D N : ℕ} (X : (⟨2, ![R, D]⟩ : Shape).Idx → EReal) (W : (⟨2, ![D, N]⟩ : Shape).Idx → EReal)
    (r f n : ℕ) : EReal :=
  ∑ d ∈ Finset.range n, at2 X r d * at2 W d f

theorem dotUpTo_zero {R D N : ℕ} (X : (⟨2, ![R, D]⟩ : Shape).Idx → EReal) (W : (⟨2, ![D, N]⟩ : Shape).Idx → EReal)
    (r f : ℕ) : dotUpTo X W r f 0 = 0 := Finset.sum_range_zero _

/-- One more block of k terms: the partial sum grows by the block's own sum. -/
theorem dotUpTo_add {R D N : ℕ} (X : (⟨2, ![R, D]⟩ : Shape).Idx → EReal) (W : (⟨2, ![D, N]⟩ : Shape).Idx → EReal)
    (r f n k : ℕ) :
    dotUpTo X W r f (n + k) = dotUpTo X W r f n + ∑ c : Fin k, at2 X r (n + c.val) * at2 W (n + c.val) f := by
  unfold dotUpTo
  rw [Finset.sum_range_add]
  exact congrArg _ (Finset.sum_range fun c => at2 X r (n + c) * at2 W (n + c) f)

/-- All D terms: the whole row-by-column product. -/
theorem dotUpTo_full {R D N : ℕ} (X : (⟨2, ![R, D]⟩ : Shape).Idx → EReal) (W : (⟨2, ![D, N]⟩ : Shape).Idx → EReal)
    (r : Fin R) (f : Fin N) :
    dotUpTo X W r.val f.val D = ∑ d : Fin D, X (ix2 r d) * W (ix2 d f) := by
  unfold dotUpTo
  rw [Finset.sum_range]
  refine Finset.sum_congr rfl fun d _ => ?_
  rw [at2_fin X r d, at2_fin W d f]

/-- The flattened result [8192, 16384]: the full product plus the bias row, entry by entry. -/
def flat (X : (⟨2, ![8192, 4096]⟩ : Shape).Idx → EReal) (W : (⟨2, ![4096, 16384]⟩ : Shape).Idx → EReal)
    (B : (⟨2, ![1, 16384]⟩ : Shape).Idx → EReal) : (⟨2, ![8192, 16384]⟩ : Shape).Idx → EReal :=
  fun i => dotUpTo X W (i 0).val (i 1).val 4096 + at2 B 0 (i 1).val

/-- The result [4, 2048, 16384] as a function of the three arguments:
    y(b, s, f) = Σ_d inputs(b, s, d) · kernel(d, f) + bias(f). -/
def result (A0 : (⟨3, ![4, 2048, 4096]⟩ : Shape).Idx → EReal) (A1 : (⟨2, ![4096, 16384]⟩ : Shape).Idx → EReal)
    (A2 : (⟨1, ![16384]⟩ : Shape).Idx → EReal) : (⟨3, ![4, 2048, 16384]⟩ : Shape).Idx → EReal :=
  fun i => (∑ d : Fin 4096, A0 (ix3 (i 0) (i 1) d) * A1 (ix2 d (i 2))) + A2 (ix1 (i 2))

end Cert.DenseBias

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.Accumulate.lean ====
/-
  The running total across the grid, at the exact reals.

  The 512 grid points are numbered t = (i·8 + j)·4 + k with i < 16 the row block, j < 8 the column block and k < 4
  the slab of the contraction axis. Point t is handed

      rows 512·(t/32) …, contraction positions 1024·(t%4) …   of the activations X,
      contraction positions 1024·(t%4) …, columns 2048·(t/4 % 8) …   of the weights W,
      columns 2048·(t/4 % 8) …   of the bias row B

  (the index maps, decided once over the grid). Reading one update at an entry (p, q) gives
  acc(p, q) + Σ_{d < 1024} x0(p, d) · x1(d, q); so by induction on the point, the accumulator after point n holds, at
  (p, q), the partial product over the first 1024·(n%4) + 1024 contraction positions of global row 512·(n/32) + p
  against global column 2048·(n/4 % 8) + q: a first slab starts from zero, and a later slab continues the point
  before it, which has the same row and column blocks and one slab fewer.
-/
import proofs.«154859_j34643206210174_1_alg».proof.Proof.CasePieces
import proofs.«154859_j34643206210174_1_alg».proof.Proof.SumSpec
import proofs.«154859_j34643206210174_1_alg».proof.Proof.LibMatmulPlain

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.DenseBias

variable (m : (ℓ : Loc nD τ sig) → Buf (Elt Ideal) ℓ)

/-- The three arrays the region reads, as it finds them. -/
abbrev xarr (c : Dev nD) : Vec Ideal S8192x4096 .bf16 := V m c main_v1
abbrev warr (c : Dev nD) : Vec Ideal S4096x16384 .bf16 := V m c main_v2
abbrev barr (c : Dev nD) : Vec Ideal S1x16384 .f32 := V m c main_v3
/-- The blocks point t is handed. -/
abbrev xblk (c : Dev nD) (t : Fin cfg0.N) : Vec Ideal S512x1024 .bf16 := iblk m c 0 t
abbrev wblk (c : Dev nD) (t : Fin cfg0.N) : Vec Ideal S1024x2048 .bf16 := iblk m c 1 t
abbrev bblk (c : Dev nD) (t : Fin cfg0.N) : Vec Ideal S1x2048 .f32 := iblk m c 2 t

/-! ## The index maps over the grid -/

theorem idx_x : ∀ t : Fin cfg0.N, win0_0.index t (0 : Fin 2) = t.val / 32 ∧ win0_0.index t (1 : Fin 2) = t.val % 4 :=
  (by decide +kernel : ∀ t : Fin grid0.N, win0_0.index t (0 : Fin 2) = t.val / 32 ∧ win0_0.index t (1 : Fin 2) = t.val % 4)
theorem idx_w : ∀ t : Fin cfg0.N, win0_1.index t (0 : Fin 2) = t.val % 4 ∧ win0_1.index t (1 : Fin 2) = t.val / 4 % 8 :=
  (by decide +kernel : ∀ t : Fin grid0.N, win0_1.index t (0 : Fin 2) = t.val % 4 ∧ win0_1.index t (1 : Fin 2) = t.val / 4 % 8)
theorem idx_b : ∀ t : Fin cfg0.N, win0_2.index t (0 : Fin 2) = 0 ∧ win0_2.index t (1 : Fin 2) = t.val / 4 % 8 :=
  (by decide +kernel : ∀ t : Fin grid0.N, win0_2.index t (0 : Fin 2) = 0 ∧ win0_2.index t (1 : Fin 2) = t.val / 4 % 8)
theorem idx_o : ∀ t : Fin cfg0.N, win0_3.index t (0 : Fin 2) = t.val / 32 ∧ win0_3.index t (1 : Fin 2) = t.val / 4 % 8 :=
  (by decide +kernel : ∀ t : Fin grid0.N, win0_3.index t (0 : Fin 2) = t.val / 32 ∧ win0_3.index t (1 : Fin 2) = t.val / 4 % 8)

/-! ## The blocks, read at natural coordinates of their arrays -/

theorem xblk_apply (c : Dev nD) (t : Fin cfg0.N) (a : Fin 512) (d : Fin 1024) :
    xblk m c t (ix2 a d) = at2 (xarr m c) (512 * (t.val / 32) + a.val) (1024 * (t.val % 4) + d.val) := by
  have hi := idx_x t
  have hN : t.val < 512 := lt_of_lt_of_eq t.isLt (show cfg0.N = 512 from N_0)
  have ha := a.isLt
  have hd := d.isLt
  rw [at2_of_lt _ _ _ (by omega) (by omega)]
  show iblk m c 0 t (ix2 a d) = _
  unfold iblk
  rw [View.read_apply]
  show V m c main_v1 _ = V m c main_v1 _
  congr 1
  funext ax
  apply Fin.ext
  match ax with
  | ⟨0, _⟩ => show win0_0.index t 0 * 512 + 1 * a.val = 512 * (t.val / 32) + a.val; rw [hi.1]; omega
  | ⟨1, _⟩ => show win0_0.index t 1 * 1024 + 1 * d.val = 1024 * (t.val % 4) + d.val; rw [hi.2]; omega

theorem wblk_apply (c : Dev nD) (t : Fin cfg0.N) (d : Fin 1024) (b : Fin 2048) :
    wblk m c t (ix2 d b) = at2 (warr m c) (1024 * (t.val % 4) + d.val) (2048 * (t.val / 4 % 8) + b.val) := by
  have hi := idx_w t
  have hN : t.val < 512 := lt_of_lt_of_eq t.isLt (show cfg0.N = 512 from N_0)
  have hb := b.isLt
  have hd := d.isLt
  rw [at2_of_lt _ _ _ (by omega) (by omega)]
  show iblk m c 1 t (ix2 d b) = _
  unfold iblk
  rw [View.read_apply]
  show V m c main_v2 _ = V m c main_v2 _
  congr 1
  funext ax
  apply Fin.ext
  match ax with
  | ⟨0, _⟩ => show win0_1.index t 0 * 1024 + 1 * d.val = 1024 * (t.val % 4) + d.val; rw [hi.1]; omega
  | ⟨1, _⟩ => show win0_1.index t 1 * 2048 + 1 * b.val = 2048 * (t.val / 4 % 8) + b.val; rw [hi.2]; omega

theorem bblk_apply (c : Dev nD) (t : Fin cfg0.N) (b : Fin 2048) :
    bblk m c t (ix2 0 b) = at2 (barr m c) 0 (2048 * (t.val / 4 % 8) + b.val) := by
  have hi := idx_b t
  have hN : t.val < 512 := lt_of_lt_of_eq t.isLt (show cfg0.N = 512 from N_0)
  have hb := b.isLt
  rw [at2_of_lt _ _ _ (by omega) (by omega)]
  show iblk m c 2 t (ix2 0 b) = _
  unfold iblk
  rw [View.read_apply]
  show V m c main_v3 _ = V m c main_v3 _
  congr 1
  funext ax
  apply Fin.ext
  match ax with
  | ⟨0, _⟩ => show win0_2.index t 0 * 1 + 1 * 0 = 0; rw [hi.1]
  | ⟨1, _⟩ => show win0_2.index t 1 * 2048 + 1 * b.val = 2048 * (t.val / 4 % 8) + b.val; rw [hi.2]; omega

/-! ## One update, and the bias step, read at an entry -/

/-- The reset block is zero everywhere. -/
theorem zero_apply (j : S512x2048.Idx) : k0_pay1 (F := Ideal) j = 0 := by
  unfold k0_pay1
  simp only [shapeCast_self]
  exact Ideal.ofBits_zero_f32

/-- The update adds the slab's row-by-column product. -/
theorem step_apply (acc : Vec Ideal S512x2048 .f32) (x0 : Vec Ideal S512x1024 .bf16) (x1 : Vec Ideal S1024x2048 .bf16)
    (p : Fin 512) (q : Fin 2048) :
    k0_pay2 (F := Ideal) acc x0 x1 (ix2 p q) = acc (ix2 p q) + ∑ d : Fin 1024, x0 (ix2 p d) * x1 (ix2 d q) := by
  unfold k0_pay2
  simp only [shapeCast_self]
  exact congrArg (acc (ix2 p q) + ·) (Cert.LibMatmulPlain.matmul_plain_zero_apply none x0 x1 p q)

/-- The last step adds the bias piece's entry of the same column. -/
theorem bias_apply (acc : Vec Ideal S512x2048 .f32) (x2 : Vec Ideal S1x2048 .f32) (p : Fin 512) (q : Fin 2048) :
    k0_pay3 (F := Ideal) acc x2 (ix2 p q) = acc (ix2 p q) + x2 (ix2 0 q) := by
  unfold k0_pay3
  simp only [shapeCast_self]
  exact congrArg (acc (ix2 p q) + ·) (Cert.LibMatmulPlain.rowBroadcast_apply x2 broadcasts_S1x2048_S512x2048 p q)

/-! ## The accumulator point by point -/

/-- After a first slab: the update of the zero block. -/
theorem acc_first (c : Dev nD) (t : Fin cfg0.N) (h0 : t.val % 4 = 0) (h1 : ¬t.val % 4 = 3) :
    (outsAt0 m c t.val t.isLt).2 = k0_pay2 (k0_pay1 (F := Ideal)) (xblk m c t) (wblk m c t) := by
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After a later slab: the update of what the point before left. -/
theorem acc_later (c : Dev nD) (t : Fin cfg0.N) (h0 : ¬t.val % 4 = 0) :
    (outsAt0 m c t.val t.isLt).2
      = k0_pay2 (outsAt0 m c (t.val - 1) (Nat.lt_of_le_of_lt (Nat.sub_le _ _) t.isLt)).2 (xblk m c t) (wblk m c t) := by
  by_cases h1 : t.val % 4 = 3
  · rw [outsAt0_C m c t h0 h1]
    dsimp only
    exact Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact Pieces.scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- After a last slab the output block is the accumulator plus the bias piece. -/
theorem out_last (c : Dev nD) (t : Fin cfg0.N) (h0 : ¬t.val % 4 = 0) (h1 : t.val % 4 = 3) :
    (outsAt0 m c t.val t.isLt).1 = k0_pay3 (outsAt0 m c t.val t.isLt).2 (bblk m c t) := by
  rw [outsAt0_C m c t h0 h1]
  dsimp only
  exact (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans
    (congrArg (fun a => k0_pay3 a (iblk m c 2 t)) (Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).symm)

/-- The slab's product at point t, in the arrays' own coordinates. -/
theorem slab_sum (c : Dev nD) (t : Fin cfg0.N) (p : Fin 512) (q : Fin 2048) :
    ∑ d : Fin 1024, xblk m c t (ix2 p d) * wblk m c t (ix2 d q)
      = ∑ d : Fin 1024, at2 (xarr m c) (512 * (t.val / 32) + p.val) (1024 * (t.val % 4) + d.val)
          * at2 (warr m c) (1024 * (t.val % 4) + d.val) (2048 * (t.val / 4 % 8) + q.val) :=
  Finset.sum_congr rfl fun d _ => by rw [xblk_apply, wblk_apply]

/-- THE RUNNING TOTAL: after point n the accumulator holds, at (p, q), the partial product over the first
    1024·(n%4) + 1024 contraction positions, for the point's global row and column. -/
theorem acc_eq (c : Dev nD) : ∀ (n : ℕ) (h : n < cfg0.N) (p : Fin 512) (q : Fin 2048),
    (outsAt0 m c n h).2 (ix2 p q)
      = dotUpTo (xarr m c) (warr m c) (512 * (n / 32) + p.val) (2048 * (n / 4 % 8) + q.val) (1024 * (n % 4) + 1024) := by
  intro n
  induction n with
  | zero =>
    intro h p q
    refine (congrFun (acc_first m c ⟨0, h⟩ (Nat.zero_mod 4) (by show ¬(0 % 4 = 3); decide)) (ix2 p q)).trans ?_
    rw [step_apply, zero_apply, slab_sum, dotUpTo_add, dotUpTo_zero]
  | succ n ih =>
    intro h p q
    have hN : n + 1 < 512 := lt_of_lt_of_eq h (show cfg0.N = 512 from N_0)
    by_cases h0 : (n + 1) % 4 = 0
    · refine (congrFun (acc_first m c ⟨n + 1, h⟩ h0 (by show ¬(n + 1) % 4 = 3; omega)) (ix2 p q)).trans ?_
      rw [step_apply, zero_apply, slab_sum, dotUpTo_add]
      show _ = dotUpTo (xarr m c) (warr m c) _ _ (1024 * ((n + 1) % 4)) + _
      rw [h0, Nat.mul_zero, dotUpTo_zero]
    · refine (congrFun (acc_later m c ⟨n + 1, h⟩ h0) (ix2 p q)).trans ?_
      rw [step_apply, slab_sum, dotUpTo_add]
      show (outsAt0 m c n (Nat.lt_of_succ_lt h)).2 (ix2 p q) + _ = _
      rw [ih (Nat.lt_of_succ_lt h) p q]
      have e1 : (n + 1) / 32 = n / 32 := by omega
      have e2 : (n + 1) / 4 % 8 = n / 4 % 8 := by omega
      have e3 : 1024 * ((n + 1) % 4) = 1024 * (n % 4) + 1024 := by omega
      show _ + (∑ d : Fin 1024, at2 (xarr m c) (512 * ((n + 1) / 32) + p.val) (1024 * ((n + 1) % 4) + d.val)
          * at2 (warr m c) (1024 * ((n + 1) % 4) + d.val) (2048 * ((n + 1) / 4 % 8) + q.val))
        = dotUpTo (xarr m c) (warr m c) (512 * ((n + 1) / 32) + p.val) (2048 * ((n + 1) / 4 % 8) + q.val) (1024 * ((n + 1) % 4)) + _
      rw [e1, e2, e3]

end Cert.KernelIdeal.Acc

end
-- ==== Proof.KernelResult.lean ====
/-
  What the idealized kernel's program leaves in its result.

  The output block (i, j) is written back once, after the last slab of its contraction walk (the points with
  t % 4 = 3). By then the accumulator holds the product over all 4096 contraction positions, so the block written
  back is the restriction, to rows 512·i … and columns 2048·j …, of ONE function of the three arrays the region reads:
  the full row-by-column product plus the bias row's entry. The 16 × 8 blocks tile the [8192, 16384] array (entry
  (r, f) lies in the block written at point ((r/512)·8 + f/2048)·4 + 3), so the array ends holding that function
  everywhere.

  Around the region the program only re-lays data: the activations [4, 2048, 4096] are flattened to [8192, 4096] (row
  2048·b + s is (b, s)), the bias [16384] becomes a row [1, 16384], both conversions to the narrower float format
  are the identity at the exact reals, and the flat result is unflattened to [4, 2048, 16384] the same way. Read
  through those re-layings, the result at (b, s, f) is Σ_d inputs(b, s, d) · kernel(d, f) + bias(f).
-/
import proofs.«154859_j34643206210174_1_alg».proof.Proof.Accumulate
import Idealize.ShloMosaic.Lib.ValueLayout
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.DenseBias Cert.KernelIdeal.Acc

variable (m : (ℓ : Loc nD τ sig) → Buf (Elt Ideal) ℓ) (ρ : Dev nD → PrngReg)

/-! ## The flat result array -/

/-- WHAT A LAST-SLAB POINT WRITES BACK is its block of the flat result function. -/
theorem flushed_eq (c : Dev nD) (t : Fin cfg0.N) (hf : (cfg0.win 3).flush t = true) :
    (dats m 0 c).flushed 3 t = ((cfg0.win 3).blk t).view.read (Elt Ideal) (flat (xarr m c) (warr m c) (barr m c)) := by
  have h3 : t.val % 4 = 3 := (flush0_3 t).mp hf
  have h0 : ¬t.val % 4 = 0 := by omega
  have hN : t.val < 512 := lt_of_lt_of_eq t.isLt (show cfg0.N = 512 from N_0)
  have hi := idx_o t
  show (cfg0.win 3).cut (grid0.coords t) ((dats m 0 c).after 3 t) = _
  rw [after0_3, out_last m c t h0 h3]
  refine funext fun (j : S512x2048.Idx) => ?_
  obtain ⟨p, q, rfl⟩ : ∃ (p : Fin 512) (q : Fin 2048), j = ix2 p q := ⟨j 0, j 1, eq_ix2 j⟩
  have hp := p.isLt
  have hq := q.isLt
  show k0_pay3 (F := Ideal) (outsAt0 m c t.val t.isLt).2 (bblk m c t) (ix2 p q)
    = dotUpTo (xarr m c) (warr m c) ((((cfg0.win 3).blk t).view.emb (ix2 p q)) 0).val ((((cfg0.win 3).blk t).view.emb (ix2 p q)) 1).val 4096
      + at2 (barr m c) 0 ((((cfg0.win 3).blk t).view.emb (ix2 p q)) 1).val
  have e0 : ((((cfg0.win 3).blk t).view.emb (ix2 p q)) 0).val = 512 * (t.val / 32) + p.val := by
    show win0_3.index t 0 * 512 + 1 * p.val = _
    rw [hi.1]; omega
  have e1 : ((((cfg0.win 3).blk t).view.emb (ix2 p q)) 1).val = 2048 * (t.val / 4 % 8) + q.val := by
    show win0_3.index t 1 * 2048 + 1 * q.val = _
    rw [hi.2]; omega
  rw [e0, e1, bias_apply, acc_eq m c t.val t.isLt p q, bblk_apply, h3]

/-- An entry of the flat array is in point t's block iff each coordinate is in the block's range. -/
theorem mem_blk (t : Fin cfg0.N) (i : S8192x16384.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v4).slice (win0_3.rect t)).set ↔ _
  rw [View.set_slice_whole, Rect.mem_set_unit]
  exact Iff.rfl

/-- Every entry lies in the block some last-slab point writes back. -/
theorem cover (i : S8192x16384.Idx) :
    ∃ t : Fin cfg0.N, (cfg0.win 3).flush t = true ∧ i ∈ ((cfg0.win 3).blk t).view.set := by
  have h0 : (i 0).val < 8192 := (i 0).isLt
  have h1 : (i 1).val < 16384 := (i 1).isLt
  have hn : ((i 0).val / 512 * 8 + (i 1).val / 2048) * 4 + 3 < cfg0.N := by
    rw [show cfg0.N = 512 from N_0]; omega
  refine ⟨⟨((i 0).val / 512 * 8 + (i 1).val / 2048) * 4 + 3, hn⟩, (flush0_3 _).mpr (by show (((i 0).val / 512 * 8 + (i 1).val / 2048) * 4 + 3) % 4 = 3; omega), ?_⟩
  have hi := idx_o ⟨((i 0).val / 512 * 8 + (i 1).val / 2048) * 4 + 3, hn⟩
  rw [mem_blk]
  intro a
  match a with
  | ⟨0, _⟩ =>
    show win0_3.index _ 0 * 512 ≤ (i 0).val ∧ (i 0).val < win0_3.index _ 0 * 512 + 512
    rw [hi.1]
    show (((i 0).val / 512 * 8 + (i 1).val / 2048) * 4 + 3) / 32 * 512 ≤ (i 0).val ∧ (i 0).val < (((i 0).val / 512 * 8 + (i 1).val / 2048) * 4 + 3) / 32 * 512 + 512
    omega
  | ⟨1, _⟩ =>
    show win0_3.index _ 1 * 2048 ≤ (i 1).val ∧ (i 1).val < win0_3.index _ 1 * 2048 + 2048
    rw [hi.2]
    show (((i 0).val / 512 * 8 + (i 1).val / 2048) * 4 + 3) / 4 % 8 * 2048 ≤ (i 1).val ∧ (i 1).val < (((i 0).val / 512 * 8 + (i 1).val / 2048) * 4 + 3) / 4 % 8 * 2048 + 2048
    omega

/-- So the flat array ends holding the flat result function. -/
theorem final_flat (c : Dev nD) : (dats m 0 c).arrAt 3 cfg0.N = flat (xarr m c) (warr m c) (barr m c) :=
  (dats m 0 c).arrAt_eq_of_cover 3 (flat (xarr m c) (warr m c) (barr m c)) (flushed_eq m c) cover

/-! ## The re-layings around the region -/

/-- The region finds the activations flattened, -/
theorem xarr_eq (c : Dev nD) :
    xarr m c = (truncf (F := Ideal) .bf16 (shapeCast S8192x4096 (m ((c : Thread nD τ).loc main_arg0)) shapeCasts_S4x2048x4096_S8192x4096 : FVec Ideal S8192x4096 .f32) bitsLt_bf16_f32 : FVec Ideal S8192x4096 .bf16) := by
  show StableHlo.after hostOps0 (fun b => m (c, b)) (Proc.devRef .tc main_v1) = _
  after_results
  rfl

/-- the weights as they are, -/
theorem warr_eq (c : Dev nD) :
    warr m c = (truncf (F := Ideal) .bf16 (m ((c : Thread nD τ).loc main_arg1) : FVec Ideal S4096x16384 .f32) bitsLt_bf16_f32 : FVec Ideal S4096x16384 .bf16) := by
  show StableHlo.after hostOps0 (fun b => m (c, b)) (Proc.devRef .tc main_v2) = _
  after_results

/-- and the bias as a row. -/
theorem barr_eq (c : Dev nD) :
    barr m c = shapeCast S1x16384 (m ((c : Thread nD τ).loc main_arg2)) shapeCasts_S16384_S1x16384 := by
  show StableHlo.after hostOps0 (fun b => m (c, b)) (Proc.devRef .tc main_v3) = _
  after_results
  rfl

/-- Row 2048·b + s of the flattened activations is (b, s). -/
theorem xarr_apply (c : Dev nD) (b : Fin 4) (s : Fin 2048) (d : Fin 4096) (r : Fin 8192) (hr : r.val = 2048 * b.val + s.val) :
    xarr m c (ix2 r d) = m ((c : Thread nD τ).loc main_arg0) (ix3 b s d) := by
  rw [xarr_eq]
  show shapeCast S8192x4096 (m ((c : Thread nD τ).loc main_arg0)) shapeCasts_S4x2048x4096_S8192x4096 (ix2 r d) = _
  refine shapeCast_apply _ _ (ix2 r d) (ix3 b s d) ?_
  rw [Shape.rowMajor_val_three, Shape.rowMajor_val_two]
  show (b.val * 2048 + s.val) * 4096 + d.val = r.val * 4096 + d.val
  rw [hr]; ring

theorem warr_apply (c : Dev nD) (i : S4096x16384.Idx) : warr m c i = m ((c : Thread nD τ).loc main_arg1) i := by
  rw [warr_eq]; rfl

theorem barr_apply (c : Dev nD) (f : Fin 16384) : barr m c (ix2 0 f) = m ((c : Thread nD τ).loc main_arg2) (ix1 f) := by
  rw [barr_eq]
  exact shapeCast_a_1a_apply _ _ 0 f

/-- THE RESULT: the program's result array, read through the unflattening, is the specification's result of the
    three arguments. -/
theorem tail_value (c : Dev nD) :
    Pipeline.afterTail₀ cfgs (dats m) 0 (V0 m) [hostOps1] c main_v5
      = result (m ((c : Thread nD τ).loc main_arg0)) (m ((c : Thread nD τ).loc main_arg1)) (m ((c : Thread nD τ).loc main_arg2)) := by
  unfold Pipeline.afterTail₀
  show StableHlo.after hostOps1 _ (Proc.devRef .tc main_v5) = _
  after_results
  refine funext fun (i : S4x2048x16384.Idx) => ?_
  obtain ⟨b, s, f, rfl⟩ : ∃ (b : Fin 4) (s : Fin 2048) (f : Fin 16384), i = ix3 b s f := ⟨i 0, i 1, i 2, eq_ix3 i⟩
  have hb := b.isLt
  have hs := s.isLt
  have hrow : 2048 * b.val + s.val < 8192 := by omega
  show shapeCast S4x2048x16384 (Pipeline.withArrays (cfgs 0).spec c (V0 m c) (fun w => (dats m 0 c).arrAt w (cfgs 0).N) (Proc.devRef .tc main_v4))
      shapeCasts_S8192x16384_S4x2048x16384 (ix3 b s f) = _
  rw [show Pipeline.withArrays (cfgs 0).spec c (V0 m c) (fun w => (dats m 0 c).arrAt w (cfgs 0).N) (Proc.devRef .tc main_v4)
      = flat (xarr m c) (warr m c) (barr m c) from
    (Pipeline.withArrays_arr spec0 launch0.win.arr_inj c _ _ 3).trans (final_flat m c)]
  refine (shapeCast_apply _ _ (ix3 b s f) (ix2 ⟨2048 * b.val + s.val, hrow⟩ f) ?_).trans ?_
  · rw [Shape.rowMajor_val_two, Shape.rowMajor_val_three]
    show (2048 * b.val + s.val) * 16384 + f.val = (b.val * 2048 + s.val) * 16384 + f.val
    ring
  · have e1 : dotUpTo (xarr m c) (warr m c) (2048 * b.val + s.val) f.val 4096
        = ∑ d : Fin 4096, xarr m c (ix2 ⟨2048 * b.val + s.val, hrow⟩ d) * warr m c (ix2 d f) :=
      dotUpTo_full (xarr m c) (warr m c) ⟨2048 * b.val + s.val, hrow⟩ f
    have e2 : at2 (barr m c) 0 f.val = barr m c (ix2 0 f) := at2_of_lt (barr m c) 0 f.val Nat.one_pos f.isLt
    show dotUpTo (xarr m c) (warr m c) (2048 * b.val + s.val) f.val 4096 + at2 (barr m c) 0 f.val = _
    rw [e1, e2, barr_apply]
    simp only [result]
    refine congrArg₂ (· + ·) (Finset.sum_congr rfl fun d _ => ?_) rfl
    exact congrArg₂ (· * ·) (xarr_apply m c b s d ⟨2048 * b.val + s.val, hrow⟩ rfl) (warr_apply m c (ix2 d f))

/-- THE RUN, READ: every weakly fair execution of the idealized kernel's program terminates with its result at the
    specification's result of the arguments, and the arguments unchanged. -/
theorem run : θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v5 (Pipeline.mem_restRefs_of main_v5 (by decide) (by decide))).trans (tail_value m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Result

end
-- ==== Proof.RefSide.lean ====
/-
  The reference computes the specification's result.

  The reference is one product over the whole contraction axis followed by the bias: at (b, s, f) it holds
  Σ_{d < 4096} inputs(b, s, d) · kernel(d, f) + bias(f). Its four operations are read one at a time at an index:
  the product contracts the last axis of the inputs with the first of the kernel; the bias is reshaped to
  [1, 1, 16384] and broadcast over the first two axes, so at (b, s, f) it is bias(f).
-/
import proofs.«154859_j34643206210174_1_alg».proof.Defs
import proofs.«154859_j34643206210174_1_alg».proof.Proof.Gen.ReferenceIdeal.Run
import proofs.«154859_j34643206210174_1_alg».proof.Proof.Gen.ReferenceIdeal.Read
import proofs.«154859_j34643206210174_1_alg».proof.Proof.SumSpec

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Read Cert.DenseBias

/-- The product's left factor at contraction position k is inputs(b, s, k); -/
theorem lidx_eq (i : S4x2048x16384.Idx) (k : Fin 4096) : lidx_main_v0 i k = ix3 (i 0) (i 1) k :=
  funext fun a => Fin.ext (by
    match a with
    | ⟨0, _⟩ => rfl
    | ⟨1, _⟩ => rfl
    | ⟨2, _⟩ => rfl)

/-- its right factor is kernel(k, f); -/
theorem ridx_eq (i : S4x2048x16384.Idx) (k : Fin 4096) : ridx_main_v0 i k = ix2 k (i 2) :=
  funext fun a => Fin.ext (by
    match a with
    | ⟨0, _⟩ => rfl
    | ⟨1, _⟩ => rfl)

/-- and the broadcast bias at (b, s, f) is bias(f). -/
theorem bidx_eq (i : S4x2048x16384.Idx) : idx_main_v1 (idx_main_v2 i) = ix1 (i 2) :=
  funext fun a => Fin.ext (by
    match a with
    | ⟨0, _⟩ => show (0 * 1 + 0) * 16384 + (i 2).val = (i 2).val; omega)

/-- The reference's last stage is the specification's result. -/
theorem ref_is_result (x0 : (⟨S4x2048x4096, .f32⟩ : BufTy).Contents (Elt Ideal)) (x1 : (⟨S4096x16384, .f32⟩ : BufTy).Contents (Elt Ideal))
    (x2 : (⟨S16384, .f32⟩ : BufTy).Contents (Elt Ideal)) :
    val_main_v3 (F := Ideal) x0 x1 x2 = result x0 x1 x2 := by
  funext i
  rw [val_main_v3_apply, val_main_v0_apply, val_main_v2_apply, val_main_v1_apply]
  simp only [lidx_eq, ridx_eq, bidx_eq]
  rfl

end Cert.ReferenceIdeal.RefValue

end
-- ==== Proof.lean ====
/-
  A dense layer with bias, y = inputs · kernel + bias over inputs [4, 2048, 4096], kernel [4096, 16384] and
  bias [16384]: a tiled matrix product against one whole product, equal over the extended reals.

  The kernel flattens the inputs to [8192, 4096] and walks a 16 × 8 × 4 grid: for each 512 × 2048 output block it
  visits the four 1024-wide slabs of the contraction axis in order, keeping a running total in a scratch block
  (reset to zero at the first slab, each slab's product added), and at the last slab writes the total plus the
  bias piece to the output block; the flat result is unflattened to [4, 2048, 16384]. The conversions of the two
  operands to a narrower float format are the identity at the exact reals. The reference is one product over the
  whole contraction axis plus the broadcast bias.

  So both sides are  y(b, s, f) = Σ_{d < 4096} inputs(b, s, d) · kernel(d, f) + bias(f)  (SumSpec.lean): the kernel's
  running total after slab k is the partial sum over d < 1024·(k+1) (Accumulate.lean, by induction on the grid
  point, over what each of the three control cases of the body leaves, CasePieces.lean), the blocks written back
  tile the result (KernelResult.lean), and the reference's operations read at an index give the same sum
  (RefSide.lean). Splitting a finite sum at a point uses only that + on the extended reals is associative and has 0
  as unit, so the inputs' finiteness is not used. The idealization rewrote nothing, so that claim is trivial; the
  three frame claims are the programs' runs with the results dropped.
-/
import proofs.«154859_j34643206210174_1_alg».proof.Defs
import proofs.«154859_j34643206210174_1_alg».proof.Proof.Gen.Kernel
import proofs.«154859_j34643206210174_1_alg».proof.Proof.Gen.Kernel.Skeleton
import proofs.«154859_j34643206210174_1_alg».proof.Proof.Gen.Kernel.Launch
import proofs.«154859_j34643206210174_1_alg».proof.Proof.Gen.Kernel.Points
import proofs.«154859_j34643206210174_1_alg».proof.Proof.Gen.Kernel.Frame
import proofs.«154859_j34643206210174_1_alg».proof.Proof.Gen.KernelIdeal
import proofs.«154859_j34643206210174_1_alg».proof.Proof.Gen.KernelIdeal.Skeleton
import proofs.«154859_j34643206210174_1_alg».proof.Proof.Gen.KernelIdeal.Launch
import proofs.«154859_j34643206210174_1_alg».proof.Proof.Gen.KernelIdeal.Points
import proofs.«154859_j34643206210174_1_alg».proof.Proof.Gen.KernelIdeal.Frame
import proofs.«154859_j34643206210174_1_alg».proof.Proof.Gen.ReferenceIdeal
import proofs.«154859_j34643206210174_1_alg».proof.Proof.Gen.ReferenceIdeal.Run
import proofs.«154859_j34643206210174_1_alg».proof.Proof.Gen.ReferenceIdeal.Read
import proofs.«154859_j34643206210174_1_alg».proof.Proof.Gen.Pre_finite_inputs
import proofs.«154859_j34643206210174_1_alg».proof.Proof.KernelResult
import proofs.«154859_j34643206210174_1_alg».proof.Proof.RefSide
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From arguments that agree, the kernel's result array ends at the tiled product plus bias and the reference's at
    the whole product plus bias: one function of the arguments. -/
theorem algebraic : Cert.algebraic_KernelIdeal_ReferenceIdeal := by
  intro m ρ m' ρ' _ hagree
  refine ⟨fun c => Cert.DenseBias.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_is_result, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
